-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x2 .f32) (main_arg5 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S100000x2 : Shape := ⟨2, ![100000, 2]⟩
abbrev S10000x16 : Shape := ⟨2, ![10000, 16]⟩
abbrev S10000x2 : Shape := ⟨2, ![10000, 2]⟩
abbrev S1x16 : Shape := ⟨2, ![1, 16]⟩
abbrev S1x2 : Shape := ⟨2, ![1, 2]⟩

abbrev nBuf : Space → Nat
  | .hbm => 63
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x16, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S100000x2, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16, .f32⟩
  | .local _ .vmem, ⟨8, _⟩ => ⟨S16x2, .f32⟩
  | .local _ .vmem, ⟨9, _⟩ => ⟨S2, .f32⟩
  | .local _ .vmem, ⟨10, _⟩ => ⟨S10000x2, .f32⟩
  | .local _ .vmem, ⟨11, _⟩ => ⟨S10000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S16x2_S16x2_0_0 : ∀ a, (![0, 0] : Fin 2 → Nat) a + S16x2.size a ≤ S16x2.size a
  h_S16x2 : 0 < S16x2.numel
  inb_S2_S2_0 : ∀ a, (![0] : Fin 1 → Nat) a + S2.size a ≤ S2.size a
  h_S2 : 0 < S2.numel
  shapeCasts_S2_S1x2 : S2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x2_S10000x2_1_0_0_1_n_n_wf : DotDims.WF S10000x16 S16x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2.size a ≤ S2.size a
  hwx1_3 : ∀ i : grid1.Coords, EltTy.bits .f32 = 32 ∨ (Rect.block (s := S2) S2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x2.size a ≤ S100000x2.size a
  hwx1_4 : ∀ i : grid1.Coords, EltTy.bits .f32 = 32 ∨ (Rect.block (s := S100000x2) S10000x2.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S10000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S1x2 : Shape := ⟨2, ![1, 2]⟩

abbrev nBuf : Space → Nat
  | .hbm => 69
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x16, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S100000x2, .f32⟩
  | .hbm, ⟨66, _⟩ => ⟨S1x2, .f32⟩
  | .hbm, ⟨67, _⟩ => ⟨S100000x2, .f32⟩
  | .hbm, ⟨68, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.HostValues.lean ====
/-
  The host operations of the kernel's program around its two pallas_calls are, operation for operation, those of the
  reference: the source and target node lists with their self loops, the degree of every target node, its inverse
  square root where positive, the per-edge normalisation, the gather of projected rows, their scaling and the
  scatter-add into the target rows. So each buffer they write holds the reference's stage of the same name, as a
  function of the edge list alone, or, after the first pallas_call, of the edge list and of whatever the
  projection buffer holds. Each stretch of operations is read from an arbitrary valuation of the buffers, and the
  stretches are then chained along the program.
-/
import proofs.«172722_j86354612453593_1_alg».proof.Proof.Gen.KernelIdeal.Frame
import proofs.«172722_j86354612453593_1_alg».proof.Proof.RefRead
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo
open Cert.ReferenceIdeal.ReadP (val_main_v3 val_main_v6 val_main_v12 val_main_v13 val_main_v14 val_main_v15 val_main_v30
  val_main_v31 val_main_v37 val_main_v40 val_main_v42 val_main_v43 val_main_v44)

variable {F : FTy → Type} [FloatOps F]

/-! ## Each stretch from an arbitrary valuation -/

section Stretches

variable (Wp : Valuation τ sig (Elt F))

/-- The source node list: the edge sources, then every node once. -/
theorem s0_v3 : after hostOps0 Wp (Proc.devRef .tc main_v3) = val_main_v3 (F := F) (Wp (Proc.devRef .tc main_arg1)) := by
  dsimp only [hostOps0]
  after_results_simp <;> rfl
/-- The target node list: the edge targets, then every node once. -/
theorem s0_v6 : after hostOps0 Wp (Proc.devRef .tc main_v6) = val_main_v6 (F := F) (Wp (Proc.devRef .tc main_arg1)) := by
  dsimp only [hostOps0]
  after_results_simp <;> rfl
/-- Where a node's degree (the number of list entries that target it) is positive. -/
theorem s0_v12 : after hostOps0 Wp (Proc.devRef .tc main_v12) = val_main_v12 (F := F) (Wp (Proc.devRef .tc main_arg1)) := by
  dsimp only [hostOps0]
  after_results_simp <;> rfl
/-- The inverse square root of the degree. -/
theorem s0_v13 : after hostOps0 Wp (Proc.devRef .tc main_v13) = val_main_v13 (F := F) (Wp (Proc.devRef .tc main_arg1)) := by
  dsimp only [hostOps0]
  after_results_simp <;> rfl
/-- The zeros chosen where the degree is not positive. -/
theorem s0_v14 : after hostOps0 Wp (Proc.devRef .tc main_v14) = val_main_v14 (F := F) := by
  dsimp only [hostOps0]
  after_results_simp <;> rfl

/-- The choice between the two, entry by entry; the node lists pass through. -/
theorem s01_v15 : after hostOps0_1 Wp (Proc.devRef .tc main_v15)
    = select (Wp (Proc.devRef .tc main_v12)) (Wp (Proc.devRef .tc main_v13)) (Wp (Proc.devRef .tc main_v14)) := by
  dsimp only [hostOps0_1]
  after_results_simp <;> rfl
theorem s01_v3 : after hostOps0_1 Wp (Proc.devRef .tc main_v3) = Wp (Proc.devRef .tc main_v3) := by
  dsimp only [hostOps0_1]
  after_results_simp <;> rfl
theorem s01_v6 : after hostOps0_1 Wp (Proc.devRef .tc main_v6) = Wp (Proc.devRef .tc main_v6) := by
  dsimp only [hostOps0_1]
  after_results_simp <;> rfl

/-- The per-edge normalisation from the node lists and the inverse square roots; the node lists pass through. -/
theorem s02_v30 (x1 : (⟨Cert.ReferenceIdeal.S2x3200000, .i32⟩ : BufTy).Contents (Elt F))
    (h3 : Wp (Proc.devRef .tc main_v3) = val_main_v3 (F := F) x1) (h6 : Wp (Proc.devRef .tc main_v6) = val_main_v6 (F := F) x1)
    (h15 : Wp (Proc.devRef .tc main_v15) = val_main_v15 (F := F) x1) :
    after hostOps0_2 Wp (Proc.devRef .tc main_v30) = val_main_v30 (F := F) x1 := by
  dsimp only [hostOps0_2]
  after_results_simp
  rw [h3, h6, h15]
  rfl
theorem s02_v3 : after hostOps0_2 Wp (Proc.devRef .tc main_v3) = Wp (Proc.devRef .tc main_v3) := by
  dsimp only [hostOps0_2]
  after_results_simp <;> rfl
theorem s02_v6 : after hostOps0_2 Wp (Proc.devRef .tc main_v6) = Wp (Proc.devRef .tc main_v6) := by
  dsimp only [hostOps0_2]
  after_results_simp <;> rfl
theorem s02_arg0 : after hostOps0_2 (after hostOps0_1 (after hostOps0 Wp)) (Proc.devRef .tc main_arg0) = Wp (Proc.devRef .tc main_arg0) := by
  dsimp only [hostOps0, hostOps0_1, hostOps0_2]
  after_results_simp <;> rfl
theorem s02_arg2 : after hostOps0_2 (after hostOps0_1 (after hostOps0 Wp)) (Proc.devRef .tc main_arg2) = Wp (Proc.devRef .tc main_arg2) := by
  dsimp only [hostOps0, hostOps0_1, hostOps0_2]
  after_results_simp <;> rfl

/-- The aggregation: gather the projected rows of the sources, scale each by its edge's normalisation, add into the
    target rows, from whatever the projection buffer holds. -/
def aggOf (xw : (⟨Cert.ReferenceIdeal.S100000x16, .f32⟩ : BufTy).Contents (Elt F))
    (x1 : (⟨Cert.ReferenceIdeal.S2x3200000, .i32⟩ : BufTy).Contents (Elt F)) : (⟨Cert.ReferenceIdeal.S100000x16, .f32⟩ : BufTy).Contents (Elt F) :=
  Host.scatterAdd Cert.ReferenceIdeal.scatter_S100000x16_S3300000x1_S3300000x16_1_0_0_1 (val_main_v42 (F := F)) (val_main_v43 (F := F) x1)
    (mulf (Host.gather Cert.ReferenceIdeal.gather_S100000x16_S3300000x1_S3300000x16_1_0_n_n_0_1_116 xw (val_main_v37 (F := F) x1)) (val_main_v40 (F := F) x1))

/-- With the reference's projection in the projection buffer it is the reference's aggregation. -/
theorem aggOf_ref (x0 : (⟨Cert.ReferenceIdeal.S100000x512, .f32⟩ : BufTy).Contents (Elt F))
    (x1 : (⟨Cert.ReferenceIdeal.S2x3200000, .i32⟩ : BufTy).Contents (Elt F))
    (x2 : (⟨Cert.ReferenceIdeal.S512x16, .f32⟩ : BufTy).Contents (Elt F)) :
    aggOf (val_main_v31 (F := F) x0 x2) x1 = val_main_v44 (F := F) x0 x1 x2 := rfl

theorem s1_v44 (xw : (⟨Cert.ReferenceIdeal.S100000x16, .f32⟩ : BufTy).Contents (Elt F))
    (x1 : (⟨Cert.ReferenceIdeal.S2x3200000, .i32⟩ : BufTy).Contents (Elt F))
    (h31 : Wp (Proc.devRef .tc main_v31) = xw)
    (h3 : Wp (Proc.devRef .tc main_v3) = val_main_v3 (F := F) x1) (h6 : Wp (Proc.devRef .tc main_v6) = val_main_v6 (F := F) x1)
    (h30 : Wp (Proc.devRef .tc main_v30) = val_main_v30 (F := F) x1) :
    after hostOps1 Wp (Proc.devRef .tc main_v44) = aggOf xw x1 := by
  dsimp only [hostOps1]
  after_results_simp
  rw [h31, h3, h6, h30]
  rfl
theorem s1_arg3 : after hostOps1 Wp (Proc.devRef .tc main_arg3) = Wp (Proc.devRef .tc main_arg3) := by
  dsimp only [hostOps1]
  after_results_simp <;> rfl
theorem s1_arg4 : after hostOps1 Wp (Proc.devRef .tc main_arg4) = Wp (Proc.devRef .tc main_arg4) := by
  dsimp only [hostOps1]
  after_results_simp <;> rfl
theorem s1_arg5 : after hostOps1 Wp (Proc.devRef .tc main_arg5) = Wp (Proc.devRef .tc main_arg5) := by
  dsimp only [hostOps1]
  after_results_simp <;> rfl

end Stretches

end Cert.KernelIdeal.HostSide

end
-- ==== Proof.XwPayload.lean ====
/-
  The first kernel's body at an index. One grid point of the first pallas_call multiplies a block of 5000 rows of x
  by the whole of W1: the value stored at row p, column q of the block is the sum over the 512 shared coordinates
  of x_block[p, k] * W1[k, q]. On the extended reals the narrowing of both operands to bf16 is the identity and the
  accumulator starts from the zero word, so nothing else is left of the body.
-/
import proofs.«172722_j86354612453593_1_alg».proof.Proof.Gen.KernelIdeal.Skeleton
import Idealize.ShloMosaic.Lib.ValueIdx
import Idealize.ShloMosaic.PureOps.Ideal.Laws

noncomputable section

namespace Cert.KernelIdeal.Xw

open Cert.KernelIdeal Cert.KernelIdeal.Gen Idealize.ShloMosaic Idealize.ShloMosaic.TcCoe

/-- Row coordinate of the output index, contraction coordinate k: where the left block is read. -/
abbrev lrow (j : S5000x16.Idx) (k : Fin 512) : S5000x512.Idx := fun a => match a with
  | ⟨0, _⟩ => ⟨(j 0).val, (j 0).isLt⟩
  | ⟨1, _⟩ => ⟨k.val, k.isLt⟩
/-- Contraction coordinate k, column coordinate of the output index: where the right operand is read. -/
abbrev rcol (j : S5000x16.Idx) (k : Fin 512) : S512x16.Idx := fun a => match a with
  | ⟨0, _⟩ => ⟨k.val, k.isLt⟩
  | ⟨1, _⟩ => ⟨(j 1).val, (j 1).isLt⟩

theorem lhs_0 (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem lhs_1 (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q
theorem rhs_0 (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q
theorem rhs_1 (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- The stored block at (p, q): the sum over k of x_block[p, k] * W1[k, q]. -/
theorem pay_apply (x0 : Vec Ideal S5000x512 .f32) (x1 : Vec Ideal S512x16 .f32) (j : S5000x16.Idx) :
    k0_pay1 (F := Ideal) x0 x1 j = ∑ k : Fin 512, x0 (lrow j k) * x1 (rcol j k) := by
  unfold k0_pay1
  simp only [matmul]
  rw [Ideal.matmul_constant_zero_apply, ← Equiv.sum_comp (ValueIdx.contrEquiv1 dot_S5000x512_S512x16_S5000x16_1_0_0_1_n_n 512 rfl rfl).symm]
  refine Finset.sum_congr rfl fun k _ => ?_
  have hk := ValueIdx.contrEquiv1_symm_val dot_S5000x512_S512x16_S5000x16_1_0_0_1_n_n 512 rfl rfl k
  have el : dot_S5000x512_S512x16_S5000x16_1_0_0_1_n_n.lhsIdx j ((ValueIdx.contrEquiv1 dot_S5000x512_S512x16_S5000x16_1_0_0_1_n_n 512 rfl rfl).symm k) = lrow j k := funext fun a => Fin.ext (by
    match a with
    | ⟨0, _⟩ => exact lhs_0 _ _
    | ⟨1, _⟩ => exact (lhs_1 _ _).trans hk)
  have er : dot_S5000x512_S512x16_S5000x16_1_0_0_1_n_n.rhsIdx j ((ValueIdx.contrEquiv1 dot_S5000x512_S512x16_S5000x16_1_0_0_1_n_n 512 rfl rfl).symm k) = rcol j k := funext fun a => Fin.ext (by
    match a with
    | ⟨0, _⟩ => exact (rhs_0 _ _).trans hk
    | ⟨1, _⟩ => exact rhs_1 _ _)
  rw [el, er]
  rfl

end Cert.KernelIdeal.Xw

end
-- ==== Proof.XwValue.lean ====
/-
  The first pallas_call's result array. Its grid has 20 points; point t stages rows 5000 t … 5000 t + 4999 of x and
  the whole of W1, and writes back rows 5000 t … 5000 t + 4999 of the result. The blocks tile the result array, so
  after the region the array holds, at (r, q), the sum over k of x[r, k] * W1[k, q], whatever contents the region
  found in its two operand arrays.
-/
import proofs.«172722_j86354612453593_1_alg».proof.Proof.Gen.KernelIdeal.Frame
import proofs.«172722_j86354612453593_1_alg».proof.Proof.XwPayload
import Idealize.ShloMosaic.Lib.Pipeline.Value

set_option maxRecDepth 16384

noncomputable section

namespace Cert.KernelIdeal.Xw

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Row r of x at the shared coordinate k. -/
abbrev arow (i : S100000x16.Idx) (k : Fin 512) : S100000x512.Idx := fun a => match a with
  | ⟨0, _⟩ => ⟨(i 0).val, (i 0).isLt⟩
  | ⟨1, _⟩ => ⟨k.val, k.isLt⟩
/-- Column q of W1 at the shared coordinate k. -/
abbrev acol (i : S100000x16.Idx) (k : Fin 512) : S512x16.Idx := fun a => match a with
  | ⟨0, _⟩ => ⟨k.val, k.isLt⟩
  | ⟨1, _⟩ => ⟨(i 1).val, (i 1).isLt⟩

/-- The product x · W1 as one function of the two arrays, index by index. -/
def prod (x : FVec Ideal S100000x512 .f32) (w : FVec Ideal S512x16 .f32) : FVec Ideal S100000x16 .f32 :=
  fun i => ∑ k : Fin 512, x (arow i k) * w (acol i k)

/-- The printed index maps over the grid: the row block moves with the point, the column block does not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz2]
  simp only [View.ld_unit_zero (S := S5000x512) hz2, View.ld_unit_zero (S := S512x16) hz2]
  obtain ⟨e0, e1, e2, e3, e4, e5⟩ := idx_facts t
  funext j
  rw [View.read_apply]
  refine (pay_apply (iblk0 V c 0 t) (iblk0 V c 1 t) j).trans ?_
  unfold prod
  refine Finset.sum_congr rfl fun k _ => ?_
  congr 1
  · unfold iblk0
    rw [View.read_apply]
    show V c main_arg0 _ = V c main_arg0 _
    congr 1
    funext a
    apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  · unfold iblk0
    rw [View.read_apply]
    show V c main_arg2 _ = V c main_arg2 _
    congr 1
    funext a
    apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega

/-- An index of the result array is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- Row r lies in the block of point r / 5000: the twenty blocks tile the array. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After the region the result array is the product of the two operand arrays as the region found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Xw

end
-- ==== Proof.ProjPayload.lean ====
/-
  The second kernel's body at an index. One grid point of the second pallas_call takes a block of 10000 rows of the
  aggregated features, adds the bias b1 to every row, multiplies by W2 and adds the bias b2 to every row: the value
  stored at row p, column q of the block is (sum over the 16 shared coordinates k of (agg_block[p, k] + b1[k]) * W2[k, q])
  + b2[q]. On the extended reals the narrowing of both matmul operands to bf16 is the identity and the accumulator
  starts from the zero word; the two biases enter as one row broadcast over the rows.
-/
import proofs.«172722_j86354612453593_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Proj

open Cert.KernelIdeal Cert.KernelIdeal.Gen Idealize.ShloMosaic Idealize.ShloMosaic.TcCoe Idealize.ShloMosaic.ValueIdx

theorem lhs_0 (i : S10000x2.Idx) (q : dot_S10000x16_S16x2_S10000x2_1_0_0_1_n_n.contr.Idx) :
    (dot_S10000x16_S16x2_S10000x2_1_0_0_1_n_n.lhsIdx i q 0).val = (i 0).val := by
  unfold DotDims.lhsIdx
  rw [dif_neg (show ¬(0 : Fin S10000x16.rank) ∈ dot_S10000x16_S16x2_S10000x2_1_0_0_1_n_n.lhsBatch by decide), dif_pos (show (0 : Fin S10000x16.rank) ∈ dot_S10000x16_S16x2_S10000x2_1_0_0_1_n_n.lhsNonContracting by decide)]
  rfl
theorem lhs_1 (i : S10000x2.Idx) (q : dot_S10000x16_S16x2_S10000x2_1_0_0_1_n_n.contr.Idx) :
    (dot_S10000x16_S16x2_S10000x2_1_0_0_1_n_n.lhsIdx i q 1).val = (q ⟨0, by decide⟩).val :=
  dot_S10000x16_S16x2_S10000x2_1_0_0_1_n_n.lhsIdx_val_of_single rfl i q
theorem rhs_0 (i : S10000x2.Idx) (q : dot_S10000x16_S16x2_S10000x2_1_0_0_1_n_n.contr.Idx) :
    (dot_S10000x16_S16x2_S10000x2_1_0_0_1_n_n.rhsIdx i q 0).val = (q ⟨0, by decide⟩).val :=
  dot_S10000x16_S16x2_S10000x2_1_0_0_1_n_n.rhsIdx_val_of_single rfl i q
theorem rhs_1 (i : S10000x2.Idx) (q : dot_S10000x16_S16x2_S10000x2_1_0_0_1_n_n.contr.Idx) :
    (dot_S10000x16_S16x2_S10000x2_1_0_0_1_n_n.rhsIdx i q 1).val = (i 1).val := by
  unfold DotDims.rhsIdx
  rw [dif_neg (show ¬(1 : Fin S16x2.rank) ∈ dot_S10000x16_S16x2_S10000x2_1_0_0_1_n_n.rhsBatch by decide), dif_pos (show (1 : Fin S16x2.rank) ∈ dot_S10000x16_S16x2_S10000x2_1_0_0_1_n_n.rhsNonContracting by decide)]
  rfl

/-- The biased block at (p, k): the block's entry plus the bias of column k. -/
theorem biased_apply (v0 : Vec Ideal S10000x16 .f32) (v2 : Vec Ideal S16 .f32) (p : Fin 10000) (k : Fin 16) :
    (addf (shapeCast S10000x16 v0 shapeCasts_S10000x16_S10000x16)
      (broadcastTo S10000x16 (shapeCast S1x16 v2 shapeCasts_S16_S1x16) broadcasts_S1x16_S10000x16) : FVec Ideal S10000x16 .f32) (ix2 p k)
      = v0 (ix2 p k) + v2 (ix1 k) := by
  rw [addf_apply, shapeCast_self, broadcastTo_1b_ab_apply, shapeCast_a_1a_apply]

/-- The stored block at (p, q). -/
theorem pay_apply (v0 : Vec Ideal S10000x16 .f32) (v2 : Vec Ideal S16 .f32) (v7 : Vec Ideal S16x2 .f32) (v10 : Vec Ideal S2 .f32)
    (p : Fin 10000) (q : Fin 2) :
    k1_pay1 (F := Ideal) v0 v2 v7 v10 (ix2 p q) = (∑ k : Fin 16, (v0 (ix2 p k) + v2 (ix1 k)) * v7 (ix2 k q)) + v10 (ix1 q) := by
  unfold k1_pay1
  simp only [matmul]
  rw [addf_apply, Ideal.matmul_constant_zero_apply, broadcastTo_1b_ab_apply, shapeCast_a_1a_apply,
    ← Equiv.sum_comp (ValueIdx.contrEquiv1 dot_S10000x16_S16x2_S10000x2_1_0_0_1_n_n 16 rfl rfl).symm]
  congr 1
  refine Finset.sum_congr rfl fun k _ => ?_
  have hk := ValueIdx.contrEquiv1_symm_val dot_S10000x16_S16x2_S10000x2_1_0_0_1_n_n 16 rfl rfl k
  have el : dot_S10000x16_S16x2_S10000x2_1_0_0_1_n_n.lhsIdx (ix2 p q) ((ValueIdx.contrEquiv1 dot_S10000x16_S16x2_S10000x2_1_0_0_1_n_n 16 rfl rfl).symm k) = ix2 p k := funext fun a => Fin.ext (by
    match a with
    | ⟨0, _⟩ => exact lhs_0 _ _
    | ⟨1, _⟩ => exact (lhs_1 _ _).trans hk)
  have er : dot_S10000x16_S16x2_S10000x2_1_0_0_1_n_n.rhsIdx (ix2 p q) ((ValueIdx.contrEquiv1 dot_S10000x16_S16x2_S10000x2_1_0_0_1_n_n 16 rfl rfl).symm k) = ix2 k q := funext fun a => Fin.ext (by
    match a with
    | ⟨0, _⟩ => exact (rhs_0 _ _).trans hk
    | ⟨1, _⟩ => exact rhs_1 _ _)
  rw [el, er, truncf_apply, truncf_apply, biased_apply]

/-- Where the block of aggregated features is read for output index j and shared coordinate k. -/
abbrev lrow (j : S10000x2.Idx) (k : Fin 16) : S10000x16.Idx := fun a => match a with
  | ⟨0, _⟩ => ⟨(j 0).val, (j 0).isLt⟩
  | ⟨1, _⟩ => ⟨k.val, k.isLt⟩
/-- Where W2 is read. -/
abbrev rcol (j : S10000x2.Idx) (k : Fin 16) : S16x2.Idx := fun a => match a with
  | ⟨0, _⟩ => ⟨k.val, k.isLt⟩
  | ⟨1, _⟩ => ⟨(j 1).val, (j 1).isLt⟩
/-- Where b1 is read. -/
abbrev kidx (k : Fin 16) : S16.Idx := fun a => match a with
  | ⟨0, _⟩ => ⟨k.val, k.isLt⟩
/-- Where b2 is read. -/
abbrev qidx (j : S10000x2.Idx) : S2.Idx := fun a => match a with
  | ⟨0, _⟩ => ⟨(j 1).val, (j 1).isLt⟩

/-- The stored block at an index j = (p, q), its operands' indices spelt from j's coordinates. -/
theorem pay_apply_idx (v0 : Vec Ideal S10000x16 .f32) (v2 : Vec Ideal S16 .f32) (v7 : Vec Ideal S16x2 .f32) (v10 : Vec Ideal S2 .f32)
    (j : S10000x2.Idx) :
    k1_pay1 (F := Ideal) v0 v2 v7 v10 j = (∑ k : Fin 16, (v0 (lrow j k) + v2 (kidx k)) * v7 (rcol j k)) + v10 (qidx j) := by
  obtain ⟨p, q, rfl⟩ : ∃ (p : Fin 10000) (q : Fin 2), j = ix2 p q := ⟨j 0, j 1, eq_ix2 j⟩
  rw [pay_apply]
  have e1 : ∀ k : Fin 16, lrow (ix2 p q) k = ix2 p k := fun k => funext fun a => by
    match a with
    | ⟨0, _⟩ => rfl
    | ⟨1, _⟩ => rfl
  have e2 : ∀ k : Fin 16, rcol (ix2 p q) k = ix2 k q := fun k => funext fun a => by
    match a with
    | ⟨0, _⟩ => rfl
    | ⟨1, _⟩ => rfl
  have e3 : ∀ k : Fin 16, kidx k = ix1 k := fun k => funext fun a => by
    match a with
    | ⟨0, _⟩ => rfl
  have e4 : qidx (ix2 p q) = ix1 q := funext fun a => by
    match a with
    | ⟨0, _⟩ => rfl
  simp only [e1, e2, e3, e4]

end Cert.KernelIdeal.Proj

end
-- ==== Proof.ProjValue.lean ====
/-
  The second pallas_call's result array. Its grid has 10 points; point t stages rows 10000 t … 10000 t + 9999 of the
  aggregated features and the whole of b1, W2 and b2, and writes back rows 10000 t … 10000 t + 9999 of the result.
  The blocks tile the result array, so after the region the array holds, at (r, q),
  (sum over k of (agg[r, k] + b1[k]) * W2[k, q]) + b2[q], whatever contents the region found in its four operand arrays.
-/
import proofs.«172722_j86354612453593_1_alg».proof.Proof.Gen.KernelIdeal.Frame
import proofs.«172722_j86354612453593_1_alg».proof.Proof.ProjPayload
import Idealize.ShloMosaic.Lib.Pipeline.Value

set_option maxRecDepth 16384

noncomputable section

namespace Cert.KernelIdeal.Proj

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Row r of the aggregated features at the shared coordinate k. -/
abbrev arow (i : S100000x2.Idx) (k : Fin 16) : S100000x16.Idx := fun a => match a with
  | ⟨0, _⟩ => ⟨(i 0).val, (i 0).isLt⟩
  | ⟨1, _⟩ => ⟨k.val, k.isLt⟩
/-- Column q of W2 at the shared coordinate k. -/
abbrev acol (i : S100000x2.Idx) (k : Fin 16) : S16x2.Idx := fun a => match a with
  | ⟨0, _⟩ => ⟨k.val, k.isLt⟩
  | ⟨1, _⟩ => ⟨(i 1).val, (i 1).isLt⟩
/-- The entry of b2 for column q. -/
abbrev bcol (i : S100000x2.Idx) : S2.Idx := fun a => match a with
  | ⟨0, _⟩ => ⟨(i 1).val, (i 1).isLt⟩

/-- The projection (agg + b1) · W2 + b2 as one function of the four arrays, index by index. -/
def proj (agg : FVec Ideal S100000x16 .f32) (b1 : FVec Ideal S16 .f32) (w2 : FVec Ideal S16x2 .f32) (b2 : FVec Ideal S2 .f32) :
    FVec Ideal S100000x2 .f32 :=
  fun i => (∑ k : Fin 16, (agg (arow i k) + b1 (kidx k)) * w2 (acol i k)) + b2 (bcol i)

/-- The printed index maps over the grid: the row block moves with the point, nothing else moves. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

set_option maxHeartbeats 2000000 in
/-- What point t writes back is block t of the projection of the four arrays as the region finds them. -/
theorem flushed_eq (c : Dev nD) (t : Fin cfg1.N) :
    (dat1 V c).flushed 4 t = ((cfg1.win 4).blk t).view.read (Elt Ideal)
      (proj (V c main_v44) (V c main_arg3) (V c main_arg4) (V c main_arg5)) := by
  show (cfg1.win 4).cut (grid1.coords t) ((dat1 V c).after 4 t) = _
  rw [after1_4]
  unfold out1_4
  rw [View.canon_unit_zero hz2]
  simp only [View.ld_unit_zero (S := S10000x16) hz2, View.ld_unit_zero (S := S16) hz1, View.ld_unit_zero (S := S16x2) hz2,
    View.ld_unit_zero (S := S2) hz1]
  obtain ⟨e0, e1, e2, e3, e4, e5, e6, e7⟩ := idx_facts t
  funext j
  rw [View.read_apply]
  refine (pay_apply_idx (iblk1 V c 0 t) (iblk1 V c 1 t) (iblk1 V c 2 t) (iblk1 V c 3 t) j).trans ?_
  unfold proj
  congr 1
  · refine Finset.sum_congr rfl fun k _ => ?_
    congr 1
    · congr 1
      · unfold iblk1
        rw [View.read_apply]
        show V c main_v44 _ = V c main_v44 _
        congr 1
        funext a
        apply Fin.ext
        match a with
        | ⟨0, _⟩ => show win1_0.index t (0 : Fin 2) * 10000 + 1 * (j 0).val = win1_4.index t (0 : Fin 2) * 10000 + 1 * (j 0).val; omega
        | ⟨1, _⟩ => show win1_0.index t (1 : Fin 2) * 16 + 1 * k.val = k.val; omega
      · unfold iblk1
        rw [View.read_apply]
        show V c main_arg3 _ = V c main_arg3 _
        congr 1
        funext a
        apply Fin.ext
        match a with
        | ⟨0, _⟩ => show win1_1.index t (0 : Fin 1) * 16 + 1 * k.val = k.val; omega
    · unfold iblk1
      rw [View.read_apply]
      show V c main_arg4 _ = V c main_arg4 _
      congr 1
      funext a
      apply Fin.ext
      match a with
      | ⟨0, _⟩ => show win1_2.index t (0 : Fin 2) * 16 + 1 * k.val = k.val; omega
      | ⟨1, _⟩ => show win1_2.index t (1 : Fin 2) * 2 + 1 * (j 1).val = win1_4.index t (1 : Fin 2) * 2 + 1 * (j 1).val; omega
  · unfold iblk1
    rw [View.read_apply]
    show V c main_arg5 _ = V c main_arg5 _
    congr 1
    funext a
    apply Fin.ext
    match a with
    | ⟨0, _⟩ => show win1_3.index t (0 : Fin 1) * 2 + 1 * (j 1).val = win1_4.index t (1 : Fin 2) * 2 + 1 * (j 1).val; omega

/-- An index of the result array is in point t's block iff each coordinate is in the block's range on its axis. -/
theorem mem_blk (t : Fin cfg1.N) (i : S100000x2.Idx) :
    i ∈ ((cfg1.win 4).blk t).view.set ↔ ∀ a : Fin 2, win1_4.index t a * S10000x2.size a ≤ (i a).val ∧ (i a).val < win1_4.index t a * S10000x2.size a + S10000x2.size a := by
  show i ∈ ((View.whole main_v45).slice (win1_4.rect t)).set ↔ _
  rw [View.set_slice_whole, Rect.mem_set_unit]
  exact Iff.rfl

/-- Row r lies in the block of point r / 10000: the ten blocks tile the array. -/
theorem cover (i : S100000x2.Idx) : ∃ t : Fin cfg1.N, (cfg1.win 4).flush t = true ∧ i ∈ ((cfg1.win 4).blk t).view.set := by
  have hi0 : (i 0).val < 100000 := (i 0).isLt
  have hi1 : (i 1).val < 2 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1, e2, e3, e4, e5, e6, e7⟩ := idx_facts t
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 2 ≤ (i 1).val ∧ (i 1).val < win1_4.index t (1 : Fin 2) * 2 + 2; omega

/-- After the region the result array is the projection of the four operand arrays as the region found them. -/
theorem final (c : Dev nD) : (dat1 V c).arrAt 4 cfg1.N = proj (V c main_v44) (V c main_arg3) (V c main_arg4) (V c main_arg5) :=
  (dat1 V c).arrAt_eq_of_cover 4 (proj (V c main_v44) (V c main_arg3) (V c main_arg4) (V c main_arg5)) (fun t _ => flushed_eq V c t) cover

end Cert.KernelIdeal.Proj

end
-- ==== Proof.Bridge.lean ====
/-
  The two dense products against the reference's stages. The first pallas_call's result, x · W1 index by index, is the
  reference's dot_general of the two arrays: the same sum over the 512 shared coordinates. The second pallas_call's
  result, (agg + b1) · W2 + b2 index by index, is the reference's last stage — a broadcast of b1 over the rows, an
  addition, a dot_general over the 16 shared coordinates, a broadcast of b2 over the rows, an addition — whenever agg is
  the reference's aggregation, which enters both sides as one array and is never opened.
-/
import proofs.«172722_j86354612453593_1_alg».proof.Proof.XwValue
import proofs.«172722_j86354612453593_1_alg».proof.Proof.ProjValue
import proofs.«172722_j86354612453593_1_alg».proof.Proof.RefRead

noncomputable section

namespace Cert.KernelIdeal.Result

open Cert.KernelIdeal Idealize.ShloMosaic Idealize.ShloMosaic.TcCoe
open Cert.ReferenceIdeal.ReadP

/-! ## The two products against the reference's stages -/

/-- x · W1, index by index, is the reference's dot_general of the two arrays. -/
theorem prod_eq_ref (x : (⟨Cert.ReferenceIdeal.S100000x512, .f32⟩ : BufTy).Contents (Elt Ideal))
    (w : (⟨Cert.ReferenceIdeal.S512x16, .f32⟩ : BufTy).Contents (Elt Ideal)) :
    Xw.prod x w = val_main_v31 (F := Ideal) x w := by
  funext i
  rw [val_main_v31_apply]
  refine Finset.sum_congr rfl fun k _ => ?_
  have e1 : Xw.arow i k = lidx_main_v31 i k := funext fun a => by
    match a with
    | ⟨0, _⟩ => rfl
    | ⟨1, _⟩ => rfl
  have e2 : Xw.acol i k = ridx_main_v31 i k := funext fun a => by
    match a with
    | ⟨0, _⟩ => rfl
    | ⟨1, _⟩ => rfl
  show x (Xw.arow i k) * w (Xw.acol i k) = _
  rw [e1, e2]

/-- The reference's last five operations from an aggregation array: b1 broadcast over the rows and added, the
    dot_general with W2, b2 broadcast over the rows and added. -/
def tailOf {F : FTy → Type} [FloatOps F] (agg : (⟨Cert.ReferenceIdeal.S100000x16, .f32⟩ : BufTy).Contents (Elt F))
    (x3 : (⟨Cert.ReferenceIdeal.S16, .f32⟩ : BufTy).Contents (Elt F))
    (x4 : (⟨Cert.ReferenceIdeal.S16x2, .f32⟩ : BufTy).Contents (Elt F))
    (x5 : (⟨Cert.ReferenceIdeal.S2, .f32⟩ : BufTy).Contents (Elt F)) : (⟨Cert.ReferenceIdeal.S100000x2, .f32⟩ : BufTy).Contents (Elt F) :=
  addf (Host.dotGeneral Cert.ReferenceIdeal.dot_S100000x16_S16x2_S100000x2_1_0_0_1_n_n none (addf agg (val_main_v46 (F := F) x3)) x4) (val_main_v50 (F := F) x5)

/-- From the reference's aggregation they give the reference's last stage. -/
theorem tailOf_ref {F : FTy → Type} [FloatOps F] (x0 : (⟨Cert.ReferenceIdeal.S100000x512, .f32⟩ : BufTy).Contents (Elt F))
    (x1 : (⟨Cert.ReferenceIdeal.S2x3200000, .i32⟩ : BufTy).Contents (Elt F))
    (x2 : (⟨Cert.ReferenceIdeal.S512x16, .f32⟩ : BufTy).Contents (Elt F))
    (x3 : (⟨Cert.ReferenceIdeal.S16, .f32⟩ : BufTy).Contents (Elt F))
    (x4 : (⟨Cert.ReferenceIdeal.S16x2, .f32⟩ : BufTy).Contents (Elt F))
    (x5 : (⟨Cert.ReferenceIdeal.S2, .f32⟩ : BufTy).Contents (Elt F)) :
    tailOf (val_main_v44 (F := F) x0 x1 x2) x3 x4 x5 = val_main_v51 (F := F) x0 x1 x2 x3 x4 x5 := rfl

/-- The reference's second dot_general at an index, of any left operand: the sum over the 16 shared coordinates. -/
theorem dot_tail_apply (y0 : FVec Ideal Cert.ReferenceIdeal.S100000x16 .f32)
    (x4 : FVec Ideal Cert.ReferenceIdeal.S16x2 .f32) (i : Cert.ReferenceIdeal.S100000x2.Idx) :
    Host.dotGeneral (F := Ideal) Cert.ReferenceIdeal.dot_S100000x16_S16x2_S100000x2_1_0_0_1_n_n none y0 x4 i = ∑ k : Fin 16, y0 (lidx_main_v48 i k) * x4 (ridx_main_v48 i k) := by
  simp only [Host.dotGeneral]
  rw [Ideal.dotGeneral_apply, ← Equiv.sum_comp (ValueIdx.contrEquiv1 Cert.ReferenceIdeal.dot_S100000x16_S16x2_S100000x2_1_0_0_1_n_n 16 rfl rfl).symm]
  refine Finset.sum_congr rfl fun k _ => ?_
  have hk := ValueIdx.contrEquiv1_symm_val Cert.ReferenceIdeal.dot_S100000x16_S16x2_S100000x2_1_0_0_1_n_n 16 rfl rfl k
  have el : Cert.ReferenceIdeal.dot_S100000x16_S16x2_S100000x2_1_0_0_1_n_n.lhsIdx i ((ValueIdx.contrEquiv1 Cert.ReferenceIdeal.dot_S100000x16_S16x2_S100000x2_1_0_0_1_n_n 16 rfl rfl).symm k) = lidx_main_v48 i k := funext fun a => Fin.ext (by
    match a with
    | ⟨0, _⟩ => exact lhs_main_v48_0 _ _
    | ⟨1, _⟩ => exact (lhs_main_v48_1 _ _).trans hk)
  have er : Cert.ReferenceIdeal.dot_S100000x16_S16x2_S100000x2_1_0_0_1_n_n.rhsIdx i ((ValueIdx.contrEquiv1 Cert.ReferenceIdeal.dot_S100000x16_S16x2_S100000x2_1_0_0_1_n_n 16 rfl rfl).symm k) = ridx_main_v48 i k := funext fun a => Fin.ext (by
    match a with
    | ⟨0, _⟩ => exact (rhs_main_v48_0 _ _).trans hk
    | ⟨1, _⟩ => exact rhs_main_v48_1 _ _)
  rw [el, er]

/-- (agg + b1) · W2 + b2, index by index, is those five operations of agg, whatever agg is. -/
theorem proj_eq_tail (agg : (⟨Cert.ReferenceIdeal.S100000x16, .f32⟩ : BufTy).Contents (Elt Ideal))
    (x3 : (⟨Cert.ReferenceIdeal.S16, .f32⟩ : BufTy).Contents (Elt Ideal))
    (x4 : (⟨Cert.ReferenceIdeal.S16x2, .f32⟩ : BufTy).Contents (Elt Ideal))
    (x5 : (⟨Cert.ReferenceIdeal.S2, .f32⟩ : BufTy).Contents (Elt Ideal)) :
    Proj.proj agg x3 x4 x5 = tailOf (F := Ideal) agg x3 x4 x5 := by
  funext i
  unfold tailOf
  rw [ValueIdx.addf_apply, dot_tail_apply, val_main_v50_apply, val_main_v49_apply]
  have e4 : Proj.bcol i = idx_main_v49 (idx_main_v50 i) := funext fun a => by
    match a with
    | ⟨0, _⟩ => rfl
  refine congrArg₂ (· + ·) (Finset.sum_congr rfl fun k _ => ?_) (congrArg x5 e4)
  have e1 : Proj.arow i k = lidx_main_v48 i k := funext fun a => by
    match a with
    | ⟨0, _⟩ => rfl
    | ⟨1, _⟩ => rfl
  have e2 : Proj.acol i k = ridx_main_v48 i k := funext fun a => by
    match a with
    | ⟨0, _⟩ => rfl
    | ⟨1, _⟩ => rfl
  have e3 : Proj.kidx k = idx_main_v45 (idx_main_v46 (lidx_main_v48 i k)) := funext fun a => by
    match a with
    | ⟨0, _⟩ => rfl
  rw [ValueIdx.addf_apply, val_main_v46_apply, val_main_v45_apply, e1, e2, e3]

end Cert.KernelIdeal.Result

end
-- ==== Proof.KernelValue.lean ====
/-
  The kernel program's result as a function of its arguments. Along the program: the host operations before the
  first pallas_call leave the node lists and the per-edge normalisation, functions of the edge list; the first
  pallas_call leaves x · W1 in the projection buffer; the host operations between the two calls leave the
  aggregation of the projected rows; the second pallas_call leaves (agg + b1) · W2 + b2 in the result buffer.
  Each of these is the reference's stage of the same name, so the result buffer ends at the reference's last stage
  of the six arguments. Both matrix products are the same sums on both sides, term by term: no law of the extended
  reals is used beyond that, and the finiteness of the inputs is not needed.
-/
import proofs.«172722_j86354612453593_1_alg».proof.Proof.HostValues
import proofs.«172722_j86354612453593_1_alg».proof.Proof.Bridge
import proofs.«172722_j86354612453593_1_alg».proof.Proof.KernelRun

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo Cert.KernelIdeal.HostSide
open Cert.ReferenceIdeal.ReadP

/-! ## The buffers along the program -/

section Chain

variable {F : FTy → Type} [FloatOps F]
variable (m : (ℓ : Loc nD τ sig) → Buf (Elt F) ℓ) (ρ : Dev nD → PrngReg) (c : Dev nD)

theorem W1_v3 : W1 m ρ c (Proc.devRef .tc main_v3) = val_main_v3 (F := F) (m ((c.tc : Thread nD τ).loc main_arg1)) := s0_v3 (W0 m ρ c)
theorem W1_v6 : W1 m ρ c (Proc.devRef .tc main_v6) = val_main_v6 (F := F) (m ((c.tc : Thread nD τ).loc main_arg1)) := s0_v6 (W0 m ρ c)
theorem W2_v3 : W2 m ρ c (Proc.devRef .tc main_v3) = val_main_v3 (F := F) (m ((c.tc : Thread nD τ).loc main_arg1)) :=
  (s01_v3 (W1 m ρ c)).trans (W1_v3 m ρ c)
theorem W2_v6 : W2 m ρ c (Proc.devRef .tc main_v6) = val_main_v6 (F := F) (m ((c.tc : Thread nD τ).loc main_arg1)) :=
  (s01_v6 (W1 m ρ c)).trans (W1_v6 m ρ c)
/-- The inverse square root of each node's degree where the degree is positive, zero elsewhere. -/
theorem W2_v15 : W2 m ρ c (Proc.devRef .tc main_v15) = val_main_v15 (F := F) (m ((c.tc : Thread nD τ).loc main_arg1)) := by
  refine (s01_v15 (W1 m ρ c)).trans ?_
  rw [show W1 m ρ c (Proc.devRef .tc main_v12) = _ from s0_v12 (W0 m ρ c), show W1 m ρ c (Proc.devRef .tc main_v13) = _ from s0_v13 (W0 m ρ c),
    show W1 m ρ c (Proc.devRef .tc main_v14) = _ from s0_v14 (W0 m ρ c)]
  rfl
theorem W3_v3 : W3 m ρ c (Proc.devRef .tc main_v3) = val_main_v3 (F := F) (m ((c.tc : Thread nD τ).loc main_arg1)) :=
  (s02_v3 (W2 m ρ c)).trans (W2_v3 m ρ c)
theorem W3_v6 : W3 m ρ c (Proc.devRef .tc main_v6) = val_main_v6 (F := F) (m ((c.tc : Thread nD τ).loc main_arg1)) :=
  (s02_v6 (W2 m ρ c)).trans (W2_v6 m ρ c)
theorem W3_v30 : W3 m ρ c (Proc.devRef .tc main_v30) = val_main_v30 (F := F) (m ((c.tc : Thread nD τ).loc main_arg1)) :=
  s02_v30 (W2 m ρ c) _ (W2_v3 m ρ c) (W2_v6 m ρ c) (W2_v15 m ρ c)
theorem W3_arg0 : W3 m ρ c (Proc.devRef .tc main_arg0) = m ((c.tc : Thread nD τ).loc main_arg0) := s02_arg0 (W0 m ρ c)
theorem W3_arg2 : W3 m ρ c (Proc.devRef .tc main_arg2) = m ((c.tc : Thread nD τ).loc main_arg2) := s02_arg2 (W0 m ρ c)
theorem W4_v3 : W4 m ρ c (Proc.devRef .tc main_v3) = val_main_v3 (F := F) (m ((c.tc : Thread nD τ).loc main_arg1)) :=
  (W4_of_ne m ρ c main_v3 (by decide)).trans (W3_v3 m ρ c)
theorem W4_v6 : W4 m ρ c (Proc.devRef .tc main_v6) = val_main_v6 (F := F) (m ((c.tc : Thread nD τ).loc main_arg1)) :=
  (W4_of_ne m ρ c main_v6 (by decide)).trans (W3_v6 m ρ c)
theorem W4_v30 : W4 m ρ c (Proc.devRef .tc main_v30) = val_main_v30 (F := F) (m ((c.tc : Thread nD τ).loc main_arg1)) :=
  (W4_of_ne m ρ c main_v30 (by decide)).trans (W3_v30 m ρ c)
theorem W5_arg3 : W5 m ρ c (Proc.devRef .tc main_arg3) = m ((c.tc : Thread nD τ).loc main_arg3) :=
  ((W6_arr m ρ c 1).trans (((dat1 (V5 m ρ) c).arrAt_in 1 rfl _).trans (A_eq1 (V5 m ρ) c 1))).symm.trans (W6_main_arg3 m ρ c)
theorem W5_arg4 : W5 m ρ c (Proc.devRef .tc main_arg4) = m ((c.tc : Thread nD τ).loc main_arg4) :=
  ((W6_arr m ρ c 2).trans (((dat1 (V5 m ρ) c).arrAt_in 2 rfl _).trans (A_eq1 (V5 m ρ) c 2))).symm.trans (W6_main_arg4 m ρ c)
theorem W5_arg5 : W5 m ρ c (Proc.devRef .tc main_arg5) = m ((c.tc : Thread nD τ).loc main_arg5) :=
  ((W6_arr m ρ c 3).trans (((dat1 (V5 m ρ) c).arrAt_in 3 rfl _).trans (A_eq1 (V5 m ρ) c 3))).symm.trans (W6_main_arg5 m ρ c)

end Chain

section AtIdeal

variable (m : (ℓ : Loc nD τ sig) → Buf (Elt Ideal) ℓ) (ρ : Dev nD → PrngReg) (c : Dev nD)

/-- After the first pallas_call the projection buffer holds the reference's x · W1. -/
theorem W4_v31 : W4 m ρ c (Proc.devRef .tc main_v31)
    = val_main_v31 (F := Ideal) (m ((c.tc : Thread nD τ).loc main_arg0)) (m ((c.tc : Thread nD τ).loc main_arg2)) := by
  refine (W4_arr m ρ c 2).trans ((Xw.final (V3 m ρ) c).trans ?_)
  rw [show V3 m ρ c main_arg0 = m ((c.tc : Thread nD τ).loc main_arg0) from W3_arg0 m ρ c,
    show V3 m ρ c main_arg2 = m ((c.tc : Thread nD τ).loc main_arg2) from W3_arg2 m ρ c]
  exact prod_eq_ref _ _

/-- Before the second pallas_call the aggregation buffer holds the reference's aggregation. -/
theorem W5_v44 : W5 m ρ c (Proc.devRef .tc main_v44)
    = val_main_v44 (F := Ideal) (m ((c.tc : Thread nD τ).loc main_arg0)) (m ((c.tc : Thread nD τ).loc main_arg1)) (m ((c.tc : Thread nD τ).loc main_arg2)) :=
  (s1_v44 (W4 m ρ c) _ _ (W4_v31 m ρ c) (W4_v3 m ρ c) (W4_v6 m ρ c) (W4_v30 m ρ c)).trans (aggOf_ref _ _ _)

/-- The result buffer after the last segment: the reference's last stage of the six arguments. -/
theorem result_eq : W6 m ρ c (Proc.devRef .tc main_v45)
    = val_main_v51 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (W6_arr m ρ c 4).trans ((Proj.final (V5 m ρ) c).trans ?_)
  rw [show V5 m ρ c main_v44 = _ from W5_v44 m ρ c, show V5 m ρ c main_arg3 = _ from W5_arg3 m ρ c,
    show V5 m ρ c main_arg4 = _ from W5_arg4 m ρ c, show V5 m ρ c main_arg5 = _ from W5_arg5 m ρ c]
  exact (proj_eq_tail _ _ _ _).trans (tailOf_ref _ _ _ _ _ _)

/-- The kernel program's run with its result named: every weakly fair execution terminates with the result buffer at the
    reference's last stage of the launch contents of the six arguments, the arguments unchanged. -/
theorem run : θ_run defs (onTc (τ := τ) (main (F := Ideal))) ⟨m, fun _ => 0, ρ⟩ (fun r => ∀ c : Dev nD,
      r.2.mem ((c.tc : Thread nD τ).loc main_v45)
        = val_main_v51 (F := Ideal) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.GenResult.run_result m ρ)

end AtIdeal

end Cert.KernelIdeal.Result

end
-- ==== Proof.lean ====
/- A graph convolution layer followed by a linear layer, on 100000 nodes and 3200000 edges: with the self loops added,
   deg[i] the number of list entries that target node i and dinv = deg^(-1/2) where deg > 0 (0 elsewhere),
     out = (scatter_add over edges j → i of dinv[j] * dinv[i] * (x · W1)[j] + b1) · W2 + b2.
   The kernel program computes the two dense products in two pallas_calls — x · W1 over 20 row blocks of 5000 rows,
   (agg + b1) · W2 + b2 over 10 row blocks of 10000 rows, each with both matmul operands narrowed to bf16 — and everything
   between them (node lists, degrees, normalisation, gather, scaling, scatter-add) in host operations that are the
   reference's own, operation for operation. On the extended reals the narrowing is the identity and a block product
   into a zero accumulator is the plain sum over the shared coordinate, the same sum the reference's dot_general is,
   term by term; so the two programs compute one function of the arguments and no algebraic law, and no finiteness of the
   inputs, is needed. The frames of the two kernel programs are the generated ones; the reference's frame is its run with
   the result dropped; the idealization rewrote no operation. -/
import proofs.«172722_j86354612453593_1_alg».proof.Defs
import proofs.«172722_j86354612453593_1_alg».proof.Proof.Gen.Kernel
import proofs.«172722_j86354612453593_1_alg».proof.Proof.Gen.Kernel.Skeleton
import proofs.«172722_j86354612453593_1_alg».proof.Proof.Gen.Kernel.Launch
import proofs.«172722_j86354612453593_1_alg».proof.Proof.Gen.Kernel.Points
import proofs.«172722_j86354612453593_1_alg».proof.Proof.Gen.Kernel.Frame
import proofs.«172722_j86354612453593_1_alg».proof.Proof.Gen.KernelIdeal
import proofs.«172722_j86354612453593_1_alg».proof.Proof.Gen.KernelIdeal.Skeleton
import proofs.«172722_j86354612453593_1_alg».proof.Proof.Gen.KernelIdeal.Launch
import proofs.«172722_j86354612453593_1_alg».proof.Proof.Gen.KernelIdeal.Points
import proofs.«172722_j86354612453593_1_alg».proof.Proof.Gen.KernelIdeal.Frame
import proofs.«172722_j86354612453593_1_alg».proof.Proof.Gen.ReferenceIdeal
import proofs.«172722_j86354612453593_1_alg».proof.Proof.Gen.Pre_finite_inputs
import proofs.«172722_j86354612453593_1_alg».proof.Proof.RefRun
import proofs.«172722_j86354612453593_1_alg».proof.Proof.RefRead
import proofs.«172722_j86354612453593_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result at the reference's last stage of the six arguments, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v51_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
